-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S512x4096 : Shape := ⟨2, ![512, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S512x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S512x4096 : Shape := ⟨2, ![512, 4096]⟩
abbrev S4096 : Shape := ⟨1, ![4096]⟩
abbrev S4096x512 : Shape := ⟨2, ![4096, 512]⟩
abbrev S512x512 : Shape := ⟨2, ![512, 512]⟩
abbrev S1x4096 : Shape := ⟨2, ![1, 4096]⟩
abbrev S1024x512 : Shape := ⟨2, ![1024, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096, .f32⟩
  | .hbm, ⟨3, _⟩ => ⟨S4096x512, .f32⟩
  | .hbm, ⟨4, _⟩ => ⟨S1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x512, .f32⟩
  | .local _ .vmem, ⟨4, _⟩ => ⟨S512x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .f32 = 32 ∨ (Rect.block (s := S1x4096) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S512x4096 : Shape := ⟨2, ![512, 4096]⟩
abbrev S4096 : Shape := ⟨1, ![4096]⟩
abbrev S4096x512 : Shape := ⟨2, ![4096, 512]⟩
abbrev S1x4096x1x512 : Shape := ⟨4, ![1, 4096, 1, 512]⟩
abbrev S1x4096x8x512 : Shape := ⟨4, ![1, 4096, 8, 512]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S512x4096, .f32⟩
  | .hbm, ⟨2, _⟩ => ⟨S4096, .f32⟩
  | .hbm, ⟨3, _⟩ => ⟨S4096x512, .f32⟩
  | .hbm, ⟨4, _⟩ => ⟨S1x4096x1x512, .f32⟩
  | .hbm, ⟨5, _⟩ => ⟨S1x4096x8x512, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4096x512_S1x4096x1x512 : S4096x512.ShapeCasts S1x4096x1x512
  bcast_S1x4096x1x512_S1x4096x8x512_0_1_2_3 : S1x4096x1x512.BroadcastsInDim S1x4096x8x512 (![0, 1, 2, 3] : Fin 4 → Fin S1x4096x8x512.rank)
  shapeCasts_S1x4096x8x512_S4096x4096 : S1x4096x8x512.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S512x4096_S4096x512_1_1_0_0_n_n_wf : DotDims.WF S4096x4096 S512x4096 S4096x512 [1] [1] [0] [0] [] []

variable [Facts₀]

def dot_S4096x4096_S512x4096_S4096x512_1_1_0_0_n_n : DotDims S4096x4096 S512x4096 S4096x512 where
  lhsContracting := [1]
  rhsContracting := [1]
  lhsNonContracting := [0]
  rhsNonContracting := [0]
  lhsBatch := []
  rhsBatch := []
  wf := dot_S4096x4096_S512x4096_S4096x512_1_1_0_0_n_n_wf

class Facts : Prop extends Facts₀ where

variable [Facts]
-- ==== Proof.LibTransposedDot.lean ====
/-
  A matrix product whose right operand is contracted on its SECOND axis, read at coordinates.

  `DotDims.transposedRhs M K N` are the dimension numbers of an `M×K` by `N×K` product: both operands are contracted on
  their second axis, no batch axis: the left operand times the transpose of the right. At the ideal instance such a product,
  whether it is the kernel's `tpu.matmul` into a zero accumulator or the host's `dot_general`, is at the output index
  `(r, c)` the sum over `k : Fin K` of `A (r, k) * B (c, k)` on the extended reals.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl j _).trans hk

/-- The right operand's index at output index `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl j _).trans hk

/-- The kernel's product into a zero accumulator, at an output index: the sum over the shared axis. -/
theorem matmul_zero_apply (prec : Option ContractPrecision) (A : FVec Ideal ⟨2, ![M, K]⟩ .f32) (B : FVec Ideal ⟨2, ![N, K]⟩ .f32)
    (j : (⟨2, ![M, N]⟩ : Shape).Idx) :
    FloatOps.matmul (DotDims.transposedRhs M K N) prec A B (constant ⟨2, ![M, N]⟩ .f32 0x00000000#32) j
      = ∑ k : Fin K, A (ix2 (j 0) k) * B (ix2 (j 1) k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![N, K]⟩ .f32) (j : (⟨2, ![M, N]⟩ : Shape).Idx) :
    FloatOps.dotGeneral (DotDims.transposedRhs M K N) prec sched A B j = ∑ k : Fin K, A (ix2 (j 0) k) * B (ix2 (j 1) k) := by
  rw [Ideal.dotGeneral_apply, ← Equiv.sum_comp (contrEquiv1 (DotDims.transposedRhs M K N) K rfl rfl).symm]
  refine Finset.sum_congr rfl fun k _ => ?_
  rw [lhsIdx_eq, rhsIdx_eq]
  rfl

end Idealize.ShloMosaic.TransposedDot

end
-- ==== Proof.TiledProduct.lean ====
/-
  The function both programs compute, at the ideal instance.

  From `x : [4096, 4096]`, `w : [512, 4096]` and `bias : [4096]`, on the extended reals:
  the product of `x` with the transpose of `w` is the `[4096, 512]` array whose entry `(b, r)` is the sum over `k` of
  `x (b, k) * w (r, k)`; the result is that product laid eight times side by side, column `q` of the wide array being
  column `q mod 512` of the product, plus `bias q` in every row.
-/
import Idealize.ShloMosaic.Lib.ValueIdx
import Idealize.ShloMosaic.PureOps.Ideal

noncomputable section

open scoped BigOperators

namespace Cert.TiledProduct

open Idealize.ShloMosaic Idealize.ShloMosaic.ValueIdx

/-- The product of `x` with the transpose of `w`: entry `(b, r)` is the sum over the shared axis. -/
def rowsByRows (x : FVec Ideal ⟨2, ![4096, 4096]⟩ .f32) (w : FVec Ideal ⟨2, ![512, 4096]⟩ .f32) :
    FVec Ideal ⟨2, ![4096, 512]⟩ .f32 :=
  fun j => ∑ k : Fin 4096, x (ix2 (n0 := 4096) (n1 := 4096) (j 0) k) * w (ix2 (n0 := 512) (n1 := 4096) (j 1) k)

/-- A column of the wide array folded onto the product's 512 columns. -/
def fold512 (q : Fin 4096) : Fin 512 := ⟨q.val % 512, Nat.mod_lt _ (by decide)⟩

theorem fold512_val (q : Fin 4096) : (fold512 q).val = q.val % 512 := rfl

/-- A `[4096, 512]` array laid eight times side by side, plus a `[1, 4096]` row repeated down the rows. -/
def tiledPlusRow (y : FVec Ideal ⟨2, ![4096, 512]⟩ .f32) (row : FVec Ideal ⟨2, ![1, 4096]⟩ .f32) :
    FVec Ideal ⟨2, ![4096, 4096]⟩ .f32 :=
  fun i => y (ix2 (n0 := 4096) (n1 := 512) (i 0) (fold512 (i 1))) + row (ix2 (n0 := 1) (n1 := 4096) 0 (i 1))

/-- The result: the product tiled, plus the bias in every row. -/
def result (x : FVec Ideal ⟨2, ![4096, 4096]⟩ .f32) (w : FVec Ideal ⟨2, ![512, 4096]⟩ .f32)
    (bias : FVec Ideal ⟨1, ![4096]⟩ .f32) : FVec Ideal ⟨2, ![4096, 4096]⟩ .f32 :=
  fun i => rowsByRows x w (ix2 (n0 := 4096) (n1 := 512) (i 0) (fold512 (i 1))) + bias (ix1 (n := 4096) (i 1))

end Cert.TiledProduct

end
-- ==== Proof.ProductRegion.lean ====
/-
  The first pipeline's output array, at the ideal instance, from ANY contents `V` the region is entered at.

  The pipeline runs over eight points. At point `t` its body loads rows `512 t … 512 t + 511` of the first array
  (`[4096, 4096]`) and the whole second array (`[512, 4096]`), multiplies the first block by the transpose of the second into a
  zero accumulator, and the pipeline writes the `[512, 512]` block back as rows `512 t … 512 t + 511` of the output (`[4096, 512]`).
  The narrowing of both operands to a shorter float format is the identity on the extended reals, so entry `(p, q)` of the block
  is the sum over `k` of `x (512 t + p, k) * w (q, k)`: block `t` of the product `rowsByRows`. The eight row blocks tile the
  output, which therefore ends holding the whole product.
-/
import proofs.«156054_j57741540327891_1_alg».proof.Proof.Gen.KernelIdeal.Frame
import proofs.«156054_j57741540327891_1_alg».proof.Proof.LibTransposedDot
import proofs.«156054_j57741540327891_1_alg».proof.Proof.TiledProduct
import Idealize.ShloMosaic.Lib.Pipeline.Value

set_option maxRecDepth 16384

noncomputable section

open scoped BigOperators

namespace Cert.KernelIdeal.ProductRegion

open Cert.KernelIdeal Cert.KernelIdeal.Gen Cert.TiledProduct
open Idealize.ShloMosaic Idealize.ShloMosaic.TcCoe Idealize.ShloMosaic.ValueIdx Idealize.SL.Sem

theorem zero_offsets : (![0, 0] : Fin 2 → Nat) = fun _ => 0 := funext fun a => by fin_cases a <;> rfl

/-- The body's stored value at entry `(p, q)`: the sum over the shared axis of the two loaded blocks' rows `p` and `q`. -/
theorem product_payload (x0 x1 : Vec Ideal S512x4096 .f32) (p q : Fin 512) :
    k0_pay1 (F := Ideal) x0 x1 (ix2 p q) = ∑ k : Fin 4096, x0 (ix2 p k) * x1 (ix2 q k) := by
  unfold k0_pay1
  show FloatOps.matmul (DotDims.transposedRhs 512 4096 512) none
    (truncf (F := Ideal) .bf16 (x0 : FVec Ideal ⟨2, ![512, 4096]⟩ .f32) _) (truncf (F := Ideal) .bf16 (x1 : FVec Ideal ⟨2, ![512, 4096]⟩ .f32) _)
    (constant (F := Ideal) ⟨2, ![512, 512]⟩ .f32 0x00000000#32) (ix2 p q) = _
  rw [Ideal.matmul_constant_zero_apply, ← Equiv.sum_comp (contrEquiv1 (DotDims.transposedRhs 512 4096 512) 4096 rfl rfl).symm]
  refine Finset.sum_congr rfl fun k _ => ?_
  rw [TransposedDot.lhsIdx_eq, TransposedDot.rhsIdx_eq]
  rfl

/-- The printed index maps over the eight points: the first input and the output move together down the rows, every other
    block index is zero, and the output's row-block index stays below eight. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the output is some point's. -/
theorem index_onto : ∀ q0 : Fin 8, ∃ t : Fin cfg0.N, win0_2.index t = ![q0.val, 0] :=
  (by decide +kernel : ∀ q0 : Fin 8, ∃ t : Fin grid0.N, win0_2.index t = ![q0.val, 0])

variable (V : (c : Dev nD) → (b : Ref sig .tc) → Buf (Elt Ideal) ((c : Thread nD τ).loc b))

/-- The two arrays the region reads, as it finds them, at their literal types. -/
abbrev xArr (c : Dev nD) : FVec Ideal ⟨2, ![4096, 4096]⟩ .f32 := V c main_arg0
abbrev wArr (c : Dev nD) : FVec Ideal ⟨2, ![512, 4096]⟩ .f32 := V c main_arg1

/-- What point `t` writes back is block `t` of the product of the two arrays as the region finds them. -/
theorem flushed_product (c : Dev nD) (t : Fin cfg0.N) :
    (dat0 V c).flushed 2 t = ((cfg0.win 2).blk t).view.read (Elt Ideal) (rowsByRows (V c main_arg0) (V c main_arg1)) := by
  show (cfg0.win 2).cut (grid0.coords t) ((dat0 V c).after 2 t) = _
  rw [after0_2]
  unfold out0_2
  rw [View.canon_unit_zero zero_offsets]
  simp only [View.ld_unit_zero (S := S512x4096) zero_offsets]
  obtain ⟨e0, e1, e2, e3, e4, e5⟩ := index_facts t
  funext j
  obtain ⟨p, q, rfl⟩ : ∃ (p q : Fin 512), j = ix2 p q := ⟨j 0, j 1, eq_ix2 j⟩
  refine (product_payload (iblk0 V c 0 t) (iblk0 V c 1 t) p q).trans ?_
  show (∑ k : Fin 4096, xArr V c (((cfg0.win 0).blk t).view.emb (ix2 p k)) * wArr V c (((cfg0.win 1).blk t).view.emb (ix2 q k)))
    = ∑ k : Fin 4096, xArr V c (ix2 (n0 := 4096) (n1 := 4096) ((((cfg0.win 2).blk t).view.emb (ix2 p q)) 0) k)
      * wArr V c (ix2 (n0 := 512) (n1 := 4096) ((((cfg0.win 2).blk t).view.emb (ix2 p q)) 1) k)
  refine Finset.sum_congr rfl fun k _ => ?_
  have h0 : ((cfg0.win 0).blk t).view.emb (ix2 p k)
      = ix2 (n0 := 4096) (n1 := 4096) ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 4096 + 1 * k.val = k.val; omega
  have h1 : ((cfg0.win 1).blk t).view.emb (ix2 q k)
      = ix2 (n0 := 512) (n1 := 4096) ((((cfg0.win 2).blk t).view.emb (ix2 p q)) 1) k := by
    funext a; apply Fin.ext
    match a with
    | ⟨0, _⟩ => show win0_1.index t (0 : Fin 2) * 512 + 1 * q.val = win0_2.index t (1 : Fin 2) * 512 + 1 * q.val; omega
    | ⟨1, _⟩ => show win0_1.index t (1 : Fin 2) * 4096 + 1 * k.val = k.val; omega
  rw [h0, h1]

/-- An index of the output is in point `t`'s block iff each coordinate is in the block's range on its axis. -/
theorem mem_block (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The eight row blocks cover the output: row `r` lies in the block of the point whose row-block index is `r / 512`. -/
theorem covered (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  obtain ⟨t, ht⟩ := index_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- THE OUTPUT ARRAY after the first pipeline: the product of the two arrays as the region finds them. -/
theorem product_array (c : Dev nD) :
    (dat0 V c).arrAt 2 cfg0.N = rowsByRows (V c main_arg0) (V c main_arg1) :=
  (dat0 V c).arrAt_eq_of_cover 2 (rowsByRows (V c main_arg0) (V c main_arg1)) (fun t _ => flushed_product V c t) covered

end Cert.KernelIdeal.ProductRegion

end
-- ==== Proof.TileRegion.lean ====
/-
  The second pipeline's output array, at the ideal instance, from ANY contents `V` the region is entered at.

  The pipeline runs over a 4 × 8 grid. At point `(a, b)` its body loads rows `1024 a … 1024 a + 1023` of the narrow array
  (`[4096, 512]`) and columns `512 b … 512 b + 511` of the one-row array (`[1, 4096]`), repeats the row down the 1024 rows, adds,
  and the pipeline writes the `[1024, 512]` block back at rows `1024 a …`, columns `512 b …` of the wide output (`[4096, 4096]`).
  So entry `(r, q)` of the output is `y (r, q mod 512) + row (0, q)`: the narrow array laid eight times side by side plus
  the row in every row, `tiledPlusRow`. The 32 blocks tile the output.
-/
import proofs.«156054_j57741540327891_1_alg».proof.Proof.Gen.KernelIdeal.Frame
import proofs.«156054_j57741540327891_1_alg».proof.Proof.TiledProduct
import Idealize.ShloMosaic.Lib.Pipeline.Value

set_option maxRecDepth 16384

noncomputable section

namespace Cert.KernelIdeal.TileRegion

open Cert.KernelIdeal Cert.KernelIdeal.Gen Cert.TiledProduct
open Idealize.ShloMosaic Idealize.ShloMosaic.TcCoe Idealize.ShloMosaic.ValueIdx Idealize.SL.Sem

theorem zero_offsets : (![0, 0] : Fin 2 → Nat) = fun _ => 0 := funext fun a => by fin_cases a <;> rfl

/-- The body's stored value at entry `(p, q)`: the first block's entry plus the one-row block's entry in column `q`. -/
theorem tile_payload (x0 : Vec Ideal S1024x512 .f32) (x1 : Vec Ideal S1x512 .f32) (p : Fin 1024) (q : Fin 512) :
    k1_pay1 (F := Ideal) x0 x1 (ix2 p q) = x0 (ix2 p q) + x1 (ix2 (n0 := 1) (n1 := 512) 0 q) := by
  unfold k1_pay1
  simp only [shapeCast_self]
  show x0 (ix2 p q) + broadcastTo S1024x512 x1 _ (ix2 p q) = _
  refine congrArg (x0 (ix2 p q) + ·) ?_
  exact broadcastTo_apply x1 _ (ix2 p q) (ix2 (n0 := 1) (n1 := 512) 0 q) (fun a => match a with
    | ⟨0, _⟩ => by show 0 = if (1 : Nat) = 1 then 0 else _; rw [if_pos rfl]
    | ⟨1, _⟩ => by show q.val = if (512 : Nat) = 1 then 0 else q.val; rw [if_neg (by decide)])

/-- The printed index maps over the 32 points: the narrow input moves with the output down the rows, the one-row input with
    the output along the columns, the other block indices are zero, and the output's block indices stay in range. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 3
    ∧ win1_2.index t (1 : Fin 2) ≤ 7 :=
  (by decide +kernel : ∀ t : Fin grid1.N, _)

/-- Every block of the output is some point's. -/
theorem index_onto : ∀ (q0 : Fin 4) (q1 : Fin 8), ∃ t : Fin cfg1.N, win1_2.index t = ![q0.val, q1.val] :=
  (by decide +kernel : ∀ (q0 : Fin 4) (q1 : Fin 8), ∃ t : Fin grid1.N, win1_2.index t = ![q0.val, q1.val])

variable (V : (c : Dev nD) → (b : Ref sig .tc) → Buf (Elt Ideal) ((c : Thread nD τ).loc b))

/-- The two arrays the region reads, as it finds them, at their literal types. -/
abbrev yArr (c : Dev nD) : FVec Ideal ⟨2, ![4096, 512]⟩ .f32 := V c main_v0
abbrev rowArr (c : Dev nD) : FVec Ideal ⟨2, ![1, 4096]⟩ .f32 := V c main_v1

/-- What point `t` writes back is block `t` of the narrow array tiled plus the row, as the region finds them. -/
theorem flushed_tile (c : Dev nD) (t : Fin cfg1.N) :
    (dat1 V c).flushed 2 t = ((cfg1.win 2).blk t).view.read (Elt Ideal) (tiledPlusRow (V c main_v0) (V c main_v1)) := by
  show (cfg1.win 2).cut (grid1.coords t) ((dat1 V c).after 2 t) = _
  rw [after1_2]
  unfold out1_2
  rw [View.canon_unit_zero zero_offsets]
  simp only [View.ld_unit_zero (S := S1024x512) zero_offsets, View.ld_unit_zero (S := S1x512) zero_offsets]
  obtain ⟨e0, e1, e2, e3, e4, e5⟩ := index_facts t
  funext j
  obtain ⟨p, q, rfl⟩ : ∃ (p : Fin 1024) (q : Fin 512), j = ix2 p q := ⟨j 0, j 1, eq_ix2 j⟩
  refine (tile_payload (iblk1 V c 0 t) (iblk1 V c 1 t) p q).trans ?_
  show yArr V c (((cfg1.win 0).blk t).view.emb (ix2 p q)) + rowArr V c (((cfg1.win 1).blk t).view.emb (ix2 (n0 := 1) (n1 := 512) 0 q))
    = yArr V c (ix2 (n0 := 4096) (n1 := 512) ((((cfg1.win 2).blk t).view.emb (ix2 p q)) 0) (fold512 ((((cfg1.win 2).blk t).view.emb (ix2 p q)) 1)))
      + rowArr V c (ix2 (n0 := 1) (n1 := 4096) 0 ((((cfg1.win 2).blk t).view.emb (ix2 p q)) 1))
  have hq : q.val < 512 := q.isLt
  have h0 : ((cfg1.win 0).blk t).view.emb (ix2 p q)
      = ix2 (n0 := 4096) (n1 := 512) ((((cfg1.win 2).blk t).view.emb (ix2 p q)) 0) (fold512 ((((cfg1.win 2).blk t).view.emb (ix2 p q)) 1)) := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 512 + 1 * q.val = (win1_2.index t (1 : Fin 2) * 512 + 1 * q.val) % 512; omega
  have h1 : ((cfg1.win 1).blk t).view.emb (ix2 (n0 := 1) (n1 := 512) 0 q)
      = ix2 (n0 := 1) (n1 := 4096) 0 ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 512 + 1 * q.val = win1_2.index t (1 : Fin 2) * 512 + 1 * q.val; omega
  rw [h0, h1]

/-- An index of the output is in point `t`'s block iff each coordinate is in the block's range on its axis. -/
theorem mem_block (t : Fin cfg1.N) (i : S4096x4096.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v2).slice (win1_2.rect t)).set ↔ _
  rw [View.set_slice_whole, Rect.mem_set_unit]
  exact Iff.rfl

/-- The 32 blocks cover the output: entry `(r, q)` lies in the block of the point with block indices `(r / 1024, q / 512)`. -/
theorem covered (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  obtain ⟨t, ht⟩ := index_onto ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- THE OUTPUT ARRAY after the second pipeline: the narrow array tiled plus the row, as the region finds them. -/
theorem tile_array (c : Dev nD) :
    (dat1 V c).arrAt 2 cfg1.N = tiledPlusRow (V c main_v0) (V c main_v1) :=
  (dat1 V c).arrAt_eq_of_cover 2 (tiledPlusRow (V c main_v0) (V c main_v1)) (fun t _ => flushed_tile V c t) covered

end Cert.KernelIdeal.TileRegion

end
-- ==== Proof.KernelValue.lean ====
/-
  The idealized kernel's result array as one function of its three arguments.

  @main runs the first pipeline, one host reshape, and the second pipeline. The first pipeline leaves the product of `x` with the
  transpose of `w` in its output; the reshape, which writes another buffer, leaves that product in place and lays the bias as a
  `[1, 4096]` row; the second pipeline is entered with exactly these two and leaves the product tiled eight times side by side plus
  the row in every row. A vector viewed as a one-row array has entry `(0, q)` equal to the vector's entry `q`, so the result is
  `Cert.TiledProduct.result` of the arguments.
-/
import proofs.«156054_j57741540327891_1_alg».proof.Proof.KernelIdealRun
import proofs.«156054_j57741540327891_1_alg».proof.Proof.ProductRegion
import proofs.«156054_j57741540327891_1_alg».proof.Proof.TileRegion
import Idealize.ShloMosaic.Lib.StableHlo.Run
import Idealize.ShloMosaic.Lib.Pipeline.Value
import Idealize.ShloMosaic.Lib.ValueIdx

set_option maxRecDepth 16384

noncomputable section

namespace Cert.KernelIdeal.Result

open Cert.KernelIdeal Cert.KernelIdeal.Gen Cert.TiledProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The second pipeline finds the product in its first input's array: the reshape between the regions does not write it, and
    the first pipeline left the product there. -/
theorem entry_product (c : Dev nD) :
    V2 m ρ c main_v0 = rowsByRows (m ((c : Thread nD τ).loc main_arg0)) (m ((c : Thread nD τ).loc main_arg1)) :=
  calc V2 m ρ c main_v0
    _ = W1 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.reshape_writes, Finset.mem_singleton]
          repeat' apply And.intro
          all_goals exact StableHlo.devRef_ne_of_ne (by decide)))
    _ = (dat0 (V0 m ρ) c).arrAt 2 cfg0.N := W1_arr m ρ c 2
    _ = rowsByRows (m ((c : Thread nD τ).loc main_arg0)) (m ((c : Thread nD τ).loc main_arg1)) :=
          ProductRegion.product_array (V0 m ρ) c

/-- The second pipeline finds the bias, viewed as one row, in its second input's array: the first pipeline does not touch the
    bias, and the reshape lays it out. -/
theorem entry_row (c : Dev nD) :
    V2 m ρ c main_v1 = shapeCast S1x4096 (m ((c : Thread nD τ).loc main_arg2)) shapeCasts_S4096_S1x4096 := by
  show StableHlo.after hostOps1 (W1 m ρ c) (Proc.devRef .tc main_v1) = _
  after_results
  rw [W1_of_ne m ρ c main_arg2 (by decide)]
  rfl

/-- A vector viewed as a one-row array: entry `(0, q)` is the vector's entry `q`. -/
theorem row_apply (b : FVec Ideal S4096 .f32) (q : Fin 4096) :
    shapeCast S1x4096 b shapeCasts_S4096_S1x4096 (ix2 (n0 := 1) (n1 := 4096) 0 q) = b (ix1 (n := 4096) q) :=
  shapeCast_apply b shapeCasts_S4096_S1x4096 _ (ix1 (n := 4096) q)
    (by rewrite [Shape.rowMajor_val_one, Shape.rowMajor_val_two]; show q.val = 0 * 4096 + q.val; omega)

/-- THE RESULT ARRAY after the second pipeline: the product tiled, plus the bias in every row. -/
theorem result_array (c : Dev nD) :
    (dat1 (V2 m ρ) c).arrAt 2 cfg1.N
      = result (m ((c : Thread nD τ).loc main_arg0)) (m ((c : Thread nD τ).loc main_arg1)) (m ((c : Thread nD τ).loc main_arg2)) := by
  rw [TileRegion.tile_array (V2 m ρ) c, entry_product m ρ c, entry_row m ρ c]
  funext i
  exact congrArg (rowsByRows (m ((c : Thread nD τ).loc main_arg0)) (m ((c : Thread nD τ).loc main_arg1))
      (ix2 (n0 := 4096) (n1 := 512) (i 0) (fold512 (i 1))) + ·) (row_apply (m ((c : Thread nD τ).loc main_arg2)) (i 1))

/-- Every weakly fair execution of the idealized kernel's @main terminates, nothing faulting, with the result array at
    `result` of the arguments and the arguments as launched. -/
theorem run_value : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_array m ρ c), (h c).2⟩) (run (F := Ideal) m ρ)

end Cert.KernelIdeal.Result

end
-- ==== Proof.RefTiled.lean ====
/-
  The reference's result, at the ideal instance, is `Cert.TiledProduct.result` of its three arguments.

  The reference forms the `[4096, 512]` product by one `dot_general` (both operands contracted on their second axis), views it as
  `[1, 4096, 1, 512]`, repeats it eight times along the third axis, and views the `[1, 4096, 8, 512]` array as `[4096, 4096]`: in row-major
  order entry `(r, q)` of the last view is entry `(0, r, q / 512, q mod 512)` of the repeated array, that is entry `(r, q mod 512)` of the
  product. The bias is laid as a row and repeated down the rows, and the two are added.
-/
import proofs.«156054_j57741540327891_1_alg».proof.Proof.Gen.ReferenceIdeal.Run
import proofs.«156054_j57741540327891_1_alg».proof.Proof.Gen.ReferenceIdeal.Read
import proofs.«156054_j57741540327891_1_alg».proof.Proof.TiledProduct

noncomputable section

open scoped BigOperators

namespace Cert.ReferenceIdeal.Tiled

open Cert.ReferenceIdeal Cert.ReferenceIdeal.Gen Cert.ReferenceIdeal.Read Cert.TiledProduct
open Idealize.ShloMosaic Idealize.ShloMosaic.ValueIdx

/-- The last stage of the reference, read at every index, is the tiled product plus the bias. -/
theorem reference_is_result (x : FVec Ideal S4096x4096 .f32) (w : FVec Ideal S512x4096 .f32) (bias : FVec Ideal S4096 .f32) :
    val_main_v6 (F := Ideal) x w bias = result x w bias := by
  funext i
  have hi0 : (i 0).val < 4096 := (i 0).isLt
  have hi1 : (i 1).val < 4096 := (i 1).isLt
  rw [val_main_v6_apply, val_main_v3_apply, val_main_v2_apply, val_main_v1_apply, val_main_v0_apply, val_main_v5_apply,
    val_main_v4_apply]
  have el : ∀ k : Fin 4096, lidx_main_v0 (idx_main_v1 (idx_main_v2 (idx_main_v3 i))) k = ix2 (n0 := 4096) (n1 := 4096) (i 0) k :=
    fun k => by
      funext a; apply Fin.ext
      match a with
      | ⟨0, _⟩ =>
        show (((0 * 4096 + ((i 0).val * 4096 + (i 1).val) / 4096 % 4096) * 1 + 0) * 512 + ((i 0).val * 4096 + (i 1).val) % 512) / 512
          = (i 0).val
        omega
      | ⟨1, _⟩ => rfl
  have er : ∀ k : Fin 4096, ridx_main_v0 (idx_main_v1 (idx_main_v2 (idx_main_v3 i))) k = ix2 (n0 := 512) (n1 := 4096) (fold512 (i 1)) k :=
    fun k => by
      funext a; apply Fin.ext
      match a with
      | ⟨0, _⟩ =>
        show (((0 * 4096 + ((i 0).val * 4096 + (i 1).val) / 4096 % 4096) * 1 + 0) * 512 + ((i 0).val * 4096 + (i 1).val) % 512) % 512
          = (i 1).val % 512
        omega
      | ⟨1, _⟩ => rfl
  have eb : idx_main_v4 (idx_main_v5 i) = ix1 (n := 4096) (i 1) := by
    funext a; apply Fin.ext
    match a with
    | ⟨0, _⟩ => rfl
  simp only [el, er, eb]
  rfl

end Cert.ReferenceIdeal.Tiled

end
-- ==== Proof.lean ====
/-
  A dense layer whose `[4096, 4096]` weight is a `[512, 4096]` block of shared rows repeated eight times: `y = x · Wᵀ + bias` with
  row `c` of `W` equal to row `c mod 512` of the shared block.

  Both programs use that the output's columns repeat: they form the small product `P (b, r) = Σ_k x (b, k) · w (r, k)` once, and the
  result is `y (b, c) = P (b, c mod 512) + bias c` (`Cert.TiledProduct.result`).
  * The kernel forms `P` in a first pipeline, row block by row block, each block one matrix product into a zero accumulator
    (its operands narrowed to a shorter float format first, which is the identity on the extended reals); a host reshape lays the
    bias as one row; a second pipeline writes each `[1024, 512]` block of the result as a block of `P` plus a piece of that row.
    Each pipeline's output blocks tile its output array, so each array ends at one whole-array function of what the pipeline
    was entered with (`ProductRegion`, `TileRegion`), and `KernelValue` composes them along @main.
  * The reference forms `P` by one `dot_general`, repeats it by a view to four axes, a repetition along the new axis and a view back
    to two, and adds the bias repeated down the rows; read at an index this is the same sum plus the same bias entry (`RefTiled`).
  No law beyond reading both programs at an index is needed: the two sums over `k` have the same terms in the same order, so the
  precondition (finite inputs) is not used. The ideal pass rewrote nothing, so `preserves` has nothing to state.
-/
import proofs.«156054_j57741540327891_1_alg».proof.Defs
import proofs.«156054_j57741540327891_1_alg».proof.Proof.Gen.Kernel
import proofs.«156054_j57741540327891_1_alg».proof.Proof.Gen.Kernel.Frame
import proofs.«156054_j57741540327891_1_alg».proof.Proof.Gen.KernelIdeal
import proofs.«156054_j57741540327891_1_alg».proof.Proof.Gen.KernelIdeal.Frame
import proofs.«156054_j57741540327891_1_alg».proof.Proof.Gen.ReferenceIdeal
import proofs.«156054_j57741540327891_1_alg».proof.Proof.Gen.ReferenceIdeal.Run
import proofs.«156054_j57741540327891_1_alg».proof.Proof.Gen.ReferenceIdeal.Read
import proofs.«156054_j57741540327891_1_alg».proof.Proof.Gen.Pre_finite_inputs
import proofs.«156054_j57741540327891_1_alg».proof.Proof.KernelValue
import proofs.«156054_j57741540327891_1_alg».proof.Proof.RefTiled
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: no rewrite to account for. -/
theorem preserves : Cert.preserves_Kernel_KernelIdeal := trivial

/-- From memories agreeing on the three arguments both programs end with the tiled product plus the bias. -/
theorem algebraic : Cert.algebraic_KernelIdeal_ReferenceIdeal := by
  intro m ρ m' ρ' _ hagree
  refine ⟨fun c => Cert.TiledProduct.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Tiled.reference_is_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
